-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41C80000#32 ((134217728 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x96x96 : Shape := ⟨4, ![4, 128, 96, 96]⟩
abbrev S4x1x96x96 : Shape := ⟨4, ![4, 1, 96, 96]⟩
abbrev S_ : Shape := ⟨0, ![]⟩

class Facts : Prop where
  bcast_S_S4x128x96x96 : S_.BroadcastsInDim S4x128x96x96 (![] : Fin 0 → Fin S4x128x96x96.rank)
  reducesTo_S4x128x96x96_S_d0_1_2_3 : S4x128x96x96.ReducesTo [0, 1, 2, 3] S_
  h_S_ : 0 < S_.numel

variable [Facts]

def fn {F : FTy → Type} [FloatOps F] (main_arg0 : FVec F S4x128x96x96 .f32) (main_arg1 : IVec S4x1x96x96 32) : IVec S_ 1 :=
  let main_v0 : FVec F S4x128x96x96 .f32 := Host.absf main_arg0
  let main_cst : FVec F S_ .f32 := constant S_ .f32 0x7F800000#32
  let main_v1 : FVec F S4x128x96x96 .f32 := broadcastInDim S4x128x96x96 ![] bcast_S_S4x128x96x96 main_cst
  let main_v2 : IVec S4x128x96x96 1 := cmpf .olt main_v0 main_v1
  let main_c : IVec S_ 1 := constantI S_ 1 1#1
  let main_v3 : IVec S_ 1 := (fun x v => Host.reduce IntOp.andi x v reducesTo_S4x128x96x96_S_d0_1_2_3 h_S_) main_v2 main_c
  main_v3
-- ==== Kernel.lean ====
abbrev S4x128x96x96 : Shape := ⟨4, ![4, 128, 96, 96]⟩
abbrev S4x1x96x96 : Shape := ⟨4, ![4, 1, 96, 96]⟩
abbrev S1x128x96x96 : Shape := ⟨4, ![1, 128, 96, 96]⟩
abbrev S128x96x96 : Shape := ⟨3, ![128, 96, 96]⟩
abbrev S96x96x128 : Shape := ⟨3, ![96, 96, 128]⟩
abbrev S9216x128 : Shape := ⟨2, ![9216, 128]⟩
abbrev S1x1x96x96 : Shape := ⟨4, ![1, 1, 96, 96]⟩
abbrev S96x96 : Shape := ⟨2, ![96, 96]⟩
abbrev S9216x1 : Shape := ⟨2, ![9216, 1]⟩
abbrev S1x9216 : Shape := ⟨2, ![1, 9216]⟩
abbrev S1x1 : Shape := ⟨2, ![1, 1]⟩
abbrev S1152x128 : Shape := ⟨2, ![1152, 128]⟩
abbrev S1152x1 : Shape := ⟨2, ![1152, 1]⟩
abbrev S1x1152 : Shape := ⟨2, ![1, 1152]⟩
abbrev S128x1152 : Shape := ⟨2, ![128, 1152]⟩
abbrev S1152x1152 : Shape := ⟨2, ![1152, 1152]⟩
abbrev S1152 : Shape := ⟨1, ![1152]⟩
abbrev S1 : Shape := ⟨1, ![1]⟩
abbrev S_ : Shape := ⟨0, ![]⟩

abbrev nBuf : Space → Nat
  | .hbm => 25
  | .vmem => 12
  | .smem => 0
  | _ => 0

abbrev bufTy : (tb : Table) → Fin (tcTables nBuf tb) → BufTy
  | .hbm, ⟨0, _⟩ => ⟨S4x128x96x96, .f32⟩
  | .hbm, ⟨1, _⟩ => ⟨S4x1x96x96, .i32⟩
  | .hbm, ⟨2, _⟩ => ⟨S1x128x96x96, .f32⟩
  | .hbm, ⟨3, _⟩ => ⟨S128x96x96, .f32⟩
  | .hbm, ⟨4, _⟩ => ⟨S96x96x128, .f32⟩
  | .hbm, ⟨5, _⟩ => ⟨S9216x128, .f32⟩
  | .hbm, ⟨6, _⟩ => ⟨S1x128x96x96, .f32⟩
  | .hbm, ⟨7, _⟩ => ⟨S128x96x96, .f32⟩
  | .hbm, ⟨8, _⟩ => ⟨S96x96x128, .f32⟩
  | .hbm, ⟨9, _⟩ => ⟨S9216x128, .f32⟩
  | .hbm, ⟨10, _⟩ => ⟨S1x1x96x96, .i32⟩
  | .hbm, ⟨11, _⟩ => ⟨S96x96, .i32⟩
  | .hbm, ⟨12, _⟩ => ⟨S9216x1, .i32⟩
  | .hbm, ⟨13, _⟩ => ⟨S1x1x96x96, .i32⟩
  | .hbm, ⟨14, _⟩ => ⟨S96x96, .i32⟩
  | .hbm, ⟨15, _⟩ => ⟨S1x9216, .i32⟩
  | .hbm, ⟨16, _⟩ => ⟨S1x1, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1152x128, .f32⟩
  | .local _ .vmem, ⟨1, _⟩ => ⟨S1152x128, .f32⟩
  | .local _ .vmem, ⟨2, _⟩ => ⟨S1152x128, .f32⟩
  | .local _ .vmem, ⟨3, _⟩ => ⟨S1152x128, .f32⟩
  | .local _ .vmem, ⟨4, _⟩ => ⟨S1152x1, .i32⟩
  | .local _ .vmem, ⟨5, _⟩ => ⟨S1152x1, .i32⟩
  | .local _ .vmem, ⟨6, _⟩ => ⟨S1x1152, .i32⟩
  | .local _ .vmem, ⟨7, _⟩ => ⟨S1x1152, .i32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S4x128x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c7_i32_1 : BitVec 32 := 7#32
  let v4 : BitVec 1 := Scalar.cmpi .eq arg1 c7_i32_1
  let v5 : BitVec 1 := Scalar.andi v3 v4
  let v46 : BitVec 32 := Scalar.extui v5
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1152 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  slices_S4x128x96x96_S1x128x96x96_0_0_0_0 : S4x128x96x96.Slices ![0, 0, 0, 0] S1x128x96x96
  shapeCasts_S1x128x96x96_S128x96x96 : S1x128x96x96.ShapeCasts S128x96x96
  transposes_S128x96x96_S96x96x128_1_2_0 : S128x96x96.Transposes [1, 2, 0] S96x96x128
  shapeCasts_S96x96x128_S9216x128 : S96x96x128.ShapeCasts S9216x128
  slices_S4x128x96x96_S1x128x96x96_1_0_0_0 : S4x128x96x96.Slices ![1, 0, 0, 0] S1x128x96x96
  slices_S4x1x96x96_S1x1x96x96_0_0_0_0 : S4x1x96x96.Slices ![0, 0, 0, 0] S1x1x96x96
  shapeCasts_S1x1x96x96_S96x96 : S1x1x96x96.ShapeCasts S96x96
  shapeCasts_S96x96_S9216x1 : S96x96.ShapeCasts S9216x1
  slices_S4x1x96x96_S1x1x96x96_1_0_0_0 : S4x1x96x96.Slices ![1, 0, 0, 0] S1x1x96x96
  shapeCasts_S96x96_S1x9216 : S96x96.ShapeCasts S1x9216
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  bitsLt_bf16_f32 : FTy.bits .bf16 < FTy.bits .f32
  transposes_S1152x128_p1_0_S128x1152 : S1152x128.Transposes [1, 0] S128x1152
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1152x1_S1152x1152 : S1152x1.Broadcasts S1152x1152
  broadcasts_S1x1152_S1152x1152 : S1x1152.Broadcasts S1152x1152
  reduces_S1152x1152_S1152 : S1152x1152.Reduces [1] S1152
  shapeCasts_S1152_S1152x1 : S1152.ShapeCasts S1152x1
  reduces_S1152x1_S1 : S1152x1.Reduces [0] S1
  shapeCasts_S1_S1x1 : S1.ShapeCasts S1x1
  shapeCasts_S1x1_S_ : S1x1.ShapeCasts S_
  dot_S1152x128_S128x1152_S1152x1152_1_0_0_1_n_n_wf : DotDims.WF S1152x128 S128x1152 S1152x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1152x128.size a ≤ S9216x128.size a
  hwx0_0 : ∀ i : grid0.Coords, EltTy.bits .f32 = 32 ∨ (Rect.block (s := S9216x128) S1152x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S9216x128.size a
  hwx0_1 : ∀ i : grid0.Coords, EltTy.bits .f32 = 32 ∨ (Rect.block (s := S9216x128) S1152x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1152x1.size a ≤ S9216x1.size a
  hwx0_2 : ∀ i : grid0.Coords, EltTy.bits .i32 = 32 ∨ (Rect.block (s := S9216x1) S1152x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1152.size a ≤ S1x9216.size a
  hwx0_3 : ∀ i : grid0.Coords, EltTy.bits .i32 = 32 ∨ (Rect.block (s := S1x9216) S1x1152.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S1152x128_S128x1152_S1152x1152_1_0_0_1_n_n : DotDims S1152x128 S128x1152 S1152x1152 where
  lhsContracting := [1]
  rhsContracting := [0]
  lhsNonContracting := [0]
  rhsNonContracting := [1]
  lhsBatch := []
  rhsBatch := []
  wf := dot_S1152x128_S128x1152_S1152x1152_1_0_0_1_n_n_wf

abbrev win0_0 : Pipeline.Window sig grid0 :=
  Pipeline.Window.ofSpec (Memref.whole main_v3) S1152x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1152x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1152x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1152.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x128x96x96 : Shape := ⟨4, ![4, 128, 96, 96]⟩
abbrev S4x1x96x96 : Shape := ⟨4, ![4, 1, 96, 96]⟩
abbrev S1x128x96x96 : Shape := ⟨4, ![1, 128, 96, 96]⟩
abbrev S128x96x96 : Shape := ⟨3, ![128, 96, 96]⟩
abbrev S96x96x128 : Shape := ⟨3, ![96, 96, 128]⟩
abbrev S9216x128 : Shape := ⟨2, ![9216, 128]⟩
abbrev S1x1x96x96 : Shape := ⟨4, ![1, 1, 96, 96]⟩
abbrev S96x96 : Shape := ⟨2, ![96, 96]⟩
abbrev S9216 : Shape := ⟨1, ![9216]⟩
abbrev S128x9216 : Shape := ⟨2, ![128, 9216]⟩
abbrev S9216x9216 : Shape := ⟨2, ![9216, 9216]⟩
abbrev S_ : Shape := ⟨0, ![]⟩
abbrev S9216x1 : Shape := ⟨2, ![9216, 1]⟩
abbrev S1x9216 : Shape := ⟨2, ![1, 9216]⟩

abbrev nBuf : Space → Nat
  | .hbm => 39
  | .vmem => 0
  | .smem => 0
  | _ => 0

abbrev bufTy : (tb : Table) → Fin (tcTables nBuf tb) → BufTy
  | .hbm, ⟨0, _⟩ => ⟨S4x128x96x96, .f32⟩
  | .hbm, ⟨1, _⟩ => ⟨S4x1x96x96, .i32⟩
  | .hbm, ⟨2, _⟩ => ⟨S1x128x96x96, .f32⟩
  | .hbm, ⟨3, _⟩ => ⟨S128x96x96, .f32⟩
  | .hbm, ⟨4, _⟩ => ⟨S96x96x128, .f32⟩
  | .hbm, ⟨5, _⟩ => ⟨S9216x128, .f32⟩
  | .hbm, ⟨6, _⟩ => ⟨S1x128x96x96, .f32⟩
  | .hbm, ⟨7, _⟩ => ⟨S128x96x96, .f32⟩
  | .hbm, ⟨8, _⟩ => ⟨S96x96x128, .f32⟩
  | .hbm, ⟨9, _⟩ => ⟨S9216x128, .f32⟩
  | .hbm, ⟨10, _⟩ => ⟨S1x1x96x96, .i32⟩
  | .hbm, ⟨11, _⟩ => ⟨S96x96, .i32⟩
  | .hbm, ⟨12, _⟩ => ⟨S9216, .i32⟩
  | .hbm, ⟨13, _⟩ => ⟨S1x1x96x96, .i32⟩
  | .hbm, ⟨14, _⟩ => ⟨S96x96, .i32⟩
  | .hbm, ⟨15, _⟩ => ⟨S9216, .i32⟩
  | .hbm, ⟨16, _⟩ => ⟨S128x9216, .f32⟩
  | .hbm, ⟨17, _⟩ => ⟨S9216x9216, .f32⟩
  | .hbm, ⟨18, _⟩ => ⟨S_, .f32⟩
  | .hbm, ⟨19, _⟩ => ⟨S9216x9216, .f32⟩
  | .hbm, ⟨20, _⟩ => ⟨S9216x9216, .f32⟩
  | .hbm, ⟨21, _⟩ => ⟨S9216x9216, .f32⟩
  | .hbm, ⟨22, _⟩ => ⟨S9216x1, .i32⟩
  | .hbm, ⟨23, _⟩ => ⟨S1x9216, .i32⟩
  | .hbm, ⟨24, _⟩ => ⟨S9216x9216, .i32⟩
  | .hbm, ⟨25, _⟩ => ⟨S9216x9216, .i32⟩
  | .hbm, ⟨26, _⟩ => ⟨S9216x9216, .i1⟩
  | .hbm, ⟨27, _⟩ => ⟨S_, .f32⟩
  | .hbm, ⟨28, _⟩ => ⟨S9216x9216, .f32⟩
  | .hbm, ⟨29, _⟩ => ⟨S9216x9216, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4x128x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S4x128x96x96_S1x128x96x96_0_0_0_0 : S4x128x96x96.Slices ![0, 0, 0, 0] S1x128x96x96
  shapeCasts_S1x128x96x96_S128x96x96 : S1x128x96x96.ShapeCasts S128x96x96
  transposes_S128x96x96_S96x96x128_1_2_0 : S128x96x96.Transposes [1, 2, 0] S96x96x128
  shapeCasts_S96x96x128_S9216x128 : S96x96x128.ShapeCasts S9216x128
  slices_S4x128x96x96_S1x128x96x96_1_0_0_0 : S4x128x96x96.Slices ![1, 0, 0, 0] S1x128x96x96
  slices_S4x1x96x96_S1x1x96x96_0_0_0_0 : S4x1x96x96.Slices ![0, 0, 0, 0] S1x1x96x96
  shapeCasts_S1x1x96x96_S96x96 : S1x1x96x96.ShapeCasts S96x96
  shapeCasts_S96x96_S9216 : S96x96.ShapeCasts S9216
  slices_S4x1x96x96_S1x1x96x96_1_0_0_0 : S4x1x96x96.Slices ![1, 0, 0, 0] S1x1x96x96
  transposes_S9216x128_S128x9216_1_0 : S9216x128.Transposes [1, 0] S128x9216
  bcast_S_S9216x9216 : S_.BroadcastsInDim S9216x9216 (![] : Fin 0 → Fin S9216x9216.rank)
  bcast_S9216_S9216x1_0 : S9216.BroadcastsInDim S9216x1 (![0] : Fin 1 → Fin S9216x1.rank)
  bcast_S9216_S1x9216_1 : S9216.BroadcastsInDim S1x9216 (![1] : Fin 1 → Fin S1x9216.rank)
  bcast_S9216x1_S9216x9216_0_1 : S9216x1.BroadcastsInDim S9216x9216 (![0, 1] : Fin 2 → Fin S9216x9216.rank)
  bcast_S1x9216_S9216x9216_0_1 : S1x9216.BroadcastsInDim S9216x9216 (![0, 1] : Fin 2 → Fin S9216x9216.rank)
  reducesTo_S9216x9216_S_d0_1 : S9216x9216.ReducesTo [0, 1] S_
  h_S_ : 0 < S_.numel
  dot_S9216x128_S128x9216_S9216x9216_1_0_0_1_n_n_wf : DotDims.WF S9216x128 S128x9216 S9216x9216 [1] [0] [0] [1] [] []

variable [Facts₀]

def dot_S9216x128_S128x9216_S9216x9216_1_0_0_1_n_n : DotDims S9216x128 S128x9216 S9216x9216 where
  lhsContracting := [1]
  rhsContracting := [0]
  lhsNonContracting := [0]
  rhsNonContracting := [1]
  lhsBatch := []
  rhsBatch := []
  wf := dot_S9216x128_S128x9216_S9216x9216_1_0_0_1_n_n_wf

class Facts : Prop extends Facts₀ where

variable [Facts]
-- ==== Proof.Cases.lean ====
/-
  What one grid step leaves in the two one-word accumulators, case by case.

  The body adds the tile's masked sum to the first accumulator and the tile's plain sum to the second. At the
  first step it first stores zero into both, so it leaves `0 + tile`; at every later step it leaves
  `previous + tile`; at the last step it also copies both accumulators to the two outputs. Each lemma reads the
  stores of one case back as a value: a store that covers the whole one-word buffer is what a later load of it
  returns, and the staged blocks are what the loads of the input buffers return.
-/
import proofs.«119153_j46531675685457_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F] [Named F]

theorem hz : (![0, 0] : Fin 2 → Nat) = fun _ => 0 := funext fun a => by fin_cases a <;> rfl

/-! ## The first step: zero, then the tile -/

theorem sout_A_0 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1152x128 .f32) (x1 : Vec F S1152x128 .f32) (x2 : Vec F S1152x1 .i32) (x3 : Vec F S1x1152 .i32) :
    sout0_A_0 c i arg2 harg2 arg3 harg3 arg4 harg4 arg5 harg5 arg6 harg6 arg7 harg7 arg8 harg8 arg9 harg9 hc0 hc1 x0 x1 x2 x3 = k0_pay1 (k0_pay6 x0 x1 x2 x3) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

theorem sout_A_1 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1152x128 .f32) (x1 : Vec F S1152x128 .f32) (x2 : Vec F S1152x1 .i32) (x3 : Vec F S1x1152 .i32) :
    sout0_A_1 c i arg2 harg2 arg3 harg3 arg4 harg4 arg5 harg5 arg6 harg6 arg7 harg7 arg8 harg8 arg9 harg9 hc0 hc1 x0 x1 x2 x3 = k0_pay2 (k0_pay7 x0 x1) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

/-! ## A middle step: the previous value plus the tile -/

theorem sout_B_0 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S1152x128 .f32) (x1 : Vec F S1152x128 .f32) (x2 : Vec F S1152x1 .i32) (x3 : Vec F S1x1152 .i32) (xs0 : Vec F S1x1 .f32) (xs1 : Vec F S1x1 .f32) :
    sout0_B_0 c i arg2 harg2 arg3 harg3 arg4 harg4 arg5 harg5 arg6 harg6 arg7 harg7 arg8 harg8 arg9 harg9 hc0 hc1 x0 x1 x2 x3 xs0 xs1 = k0_pay1 (k0_pay6 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

theorem sout_B_1 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S1152x128 .f32) (x1 : Vec F S1152x128 .f32) (x2 : Vec F S1152x1 .i32) (x3 : Vec F S1x1152 .i32) (xs0 : Vec F S1x1 .f32) (xs1 : Vec F S1x1 .f32) :
    sout0_B_1 c i arg2 harg2 arg3 harg3 arg4 harg4 arg5 harg5 arg6 harg6 arg7 harg7 arg8 harg8 arg9 harg9 hc0 hc1 x0 x1 x2 x3 xs0 xs1 = k0_pay2 (k0_pay7 x0 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

/-! ## The last step: the same, and the two outputs take the accumulators' values -/

theorem sout_C_0 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1152x128 .f32) (x1 : Vec F S1152x128 .f32) (x2 : Vec F S1152x1 .i32) (x3 : Vec F S1x1152 .i32) (xs0 : Vec F S1x1 .f32) (xs1 : Vec F S1x1 .f32) :
    sout0_C_0 c i arg2 harg2 arg3 harg3 arg4 harg4 arg5 harg5 arg6 harg6 arg7 harg7 arg8 harg8 arg9 harg9 hc0 hc1 x0 x1 x2 x3 xs0 xs1 = k0_pay1 (k0_pay6 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

theorem sout_C_1 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1152x128 .f32) (x1 : Vec F S1152x128 .f32) (x2 : Vec F S1152x1 .i32) (x3 : Vec F S1x1152 .i32) (xs0 : Vec F S1x1 .f32) (xs1 : Vec F S1x1 .f32) :
    sout0_C_1 c i arg2 harg2 arg3 harg3 arg4 harg4 arg5 harg5 arg6 harg6 arg7 harg7 arg8 harg8 arg9 harg9 hc0 hc1 x0 x1 x2 x3 xs0 xs1 = k0_pay2 (k0_pay7 x0 x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

theorem out_C_4 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1152x128 .f32) (x1 : Vec F S1152x128 .f32) (x2 : Vec F S1152x1 .i32) (x3 : Vec F S1x1152 .i32) (xs0 : Vec F S1x1 .f32) (xs1 : Vec F S1x1 .f32) :
    out0_C_4 c i arg2 harg2 arg3 harg3 arg4 harg4 arg5 harg5 arg6 harg6 arg7 harg7 arg8 harg8 arg9 harg9 hc0 hc1 x0 x1 x2 x3 xs0 xs1 = k0_pay1 (k0_pay6 x0 x1 x2 x3) xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

theorem out_C_5 (c : Dev nD) (i : grid0.Coords) (arg2 : Memref sig .tc .vmem S1152x128 .f32) (harg2 : arg2.IsWhole) (arg3 : Memref sig .tc .vmem S1152x128 .f32) (harg3 : arg3.IsWhole) (arg4 : Memref sig .tc .vmem S1152x1 .i32) (harg4 : arg4.IsWhole) (arg5 : Memref sig .tc .vmem S1x1152 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1152x128 .f32) (x1 : Vec F S1152x128 .f32) (x2 : Vec F S1152x1 .i32) (x3 : Vec F S1x1152 .i32) (xs0 : Vec F S1x1 .f32) (xs1 : Vec F S1x1 .f32) :
    out0_C_5 c i arg2 harg2 arg3 harg3 arg4 harg4 arg5 harg5 arg6 harg6 arg7 harg7 arg8 harg8 arg9 harg9 hc0 hc1 x0 x1 x2 x3 xs0 xs1 = k0_pay2 (k0_pay7 x0 x1) xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1152x128) hz, View.ld_unit_zero (S := S1152x1) hz, View.ld_unit_zero (S := S1x1152) hz, View.ld_unit_zero (S := S1x1) hz,
    View.readCov_unit_zero (S := S1x1) _ hz]

end Cert.KernelIdeal.Cases

end
-- ==== Proof.TileSums.lean ====
/-
  Sums over the virtual 9216 × 9216 similarity matrix, cut into 8 × 8 tiles of 1152 × 1152.

  The kernel never forms the matrix: it walks the 64 tiles in row-major order, sums each tile and adds the
  tile's sum to a running total. This module holds the arithmetic that makes this the sum over the whole
  matrix: an index below 9216 is a tile number below 8 and an offset below 1152 in exactly one way, so a sum
  over 9216 indices is a double sum over tile and offset; a running total started at zero and increased by
  one term per step is the sum of the terms; and the 64 steps are the pairs (tile row, tile column).
  Addition of extended reals is commutative and associative, so every statement holds in any commutative
  additive monoid and no finiteness is used.
-/
import Mathlib.Algebra.BigOperators.Fin
import Mathlib.Algebra.BigOperators.Group.Finset.Basic
import Mathlib.Logic.Equiv.Fin.Basic

namespace Cert.SupCon

variable {M : Type*} [AddCommMonoid M]

/-- Row (or column) `a` of tile number `t % 8`: index `1152 · (t % 8) + a` of the matrix. -/
def rowOf (t : ℕ) (a : Fin 1152) : Fin 9216 :=
  ⟨1152 * (t % 8) + a.val, by have := a.isLt; have := Nat.mod_lt t (by omega : 8 > 0); omega⟩

@[simp] theorem rowOf_val (t : ℕ) (a : Fin 1152) : (rowOf t a).val = 1152 * (t % 8) + a.val := rfl

/-- A sum over the 9216 indices is the sum over the 8 tiles of the sums over the 1152 offsets. -/
theorem sum_tiles (g : Fin 9216 → M) : ∑ p : Fin 9216, g p = ∑ t : Fin 8, ∑ a : Fin 1152, g (rowOf t.val a) := by
  rw [← Equiv.sum_comp (finProdFinEquiv : Fin 8 × Fin 1152 ≃ Fin 9216) g, Fintype.sum_prod_type]
  refine Finset.sum_congr rfl fun t _ => Finset.sum_congr rfl fun a _ => congrArg g (Fin.ext ?_)
  have ht := t.isLt
  show a.val + 1152 * t.val = 1152 * (t.val % 8) + a.val
  rw [Nat.mod_eq_of_lt ht]; omega

/-- The whole matrix summed entry by entry is the 64 tile sums added up. -/
theorem sum_matrix_tiles (f : Fin 9216 → Fin 9216 → M) :
    ∑ p : Fin 9216, ∑ q : Fin 9216, f p q
      = ∑ ti : Fin 8, ∑ tj : Fin 8, ∑ a : Fin 1152, ∑ b : Fin 1152, f (rowOf ti.val a) (rowOf tj.val b) := by
  rw [sum_tiles]
  refine Finset.sum_congr rfl fun ti _ => ?_
  rw [Finset.sum_congr rfl fun a _ => sum_tiles (fun q => f (rowOf ti.val a) q), Finset.sum_comm]

/-- The 64 grid steps, in order, are the pairs (tile row `n / 8`, tile column `n % 8`). -/
theorem sum_steps (P : ℕ → ℕ → M) :
    ∑ n ∈ Finset.range 64, P (n / 8) (n % 8) = ∑ ti : Fin 8, ∑ tj : Fin 8, P ti.val tj.val := by
  rw [Finset.sum_range, ← Equiv.sum_comp (finProdFinEquiv : Fin 8 × Fin 8 ≃ Fin 64), Fintype.sum_prod_type]
  refine Finset.sum_congr rfl fun ti _ => Finset.sum_congr rfl fun tj _ => ?_
  have hi := ti.isLt
  have hj := tj.isLt
  have hv : ((finProdFinEquiv (ti, tj) : Fin 64) : ℕ) = tj.val + 8 * ti.val := rfl
  rw [hv]
  congr 1 <;> omega

end Cert.SupCon
-- ==== Proof.Spec.lean ====
/-
  The supervised contrastive loss of one pair of feature maps, as one function of the two argument arrays.

  From `x : f32[4, 128, 96, 96]` take images 0 and 1, each laid out as 9216 pixels by 128 channels; from
  `label : i32[4, 1, 96, 96]` the two label maps, each 9216 labels. The similarity of pixel `p` of the first
  image and pixel `q` of the second is `exp (⟨row p, row q⟩ · s)` with `s` the inverse temperature; `total`
  sums it over all 9216 × 9216 pairs, `pos` over the pairs whose labels agree, and the loss is
  `-log (pos / total) / 9216²`. Kernel and reference both compute exactly this: the kernel tile by tile with
  a running sum (TileSums.lean makes that the whole sum), the reference in one piece.
-/
import Idealize.ShloMosaic.PureOps.Ideal.Laws
import Idealize.ShloMosaic.Lib.ValueIdx
import proofs.«119153_j46531675685457_1_alg».proof.Proof.TileSums

noncomputable section

namespace Cert.SupCon

open Idealize.ShloMosaic Idealize.ShloMosaic.ValueIdx

/-- A feature matrix: 9216 pixels by 128 channels, over the extended reals. -/
abbrev Feat := (⟨2, ![9216, 128]⟩ : Shape).Idx → EReal
/-- A label vector: one 32-bit label per pixel. -/
abbrev Lab := Fin 9216 → BitVec 32

/-- The inverse temperature both programs scale the inner products by: `1 / D` for `D = 5368709 / 2²⁷`, the f32
    nearest to 0.04 by which the reference divides. -/
def scale : EReal := ((134217728 / 5368709 : ℝ) : EReal)

/-- The similarity of pixel `p` of the first image and pixel `q` of the second. -/
def sim (f1 f2 : Feat) (p q : Fin 9216) : EReal :=
  Ideal.exp ((∑ k : Fin 128, f1 (ix2 p k) * f2 (ix2 q k)) * scale)

/-- The same, kept only where the two pixels' labels agree. -/
def msim (f1 f2 : Feat) (l1 l2 : Lab) (p q : Fin 9216) : EReal :=
  Scalar.select (IntOp.cmpi .eq (l1 p) (l2 q)) (sim f1 f2 p q) 0

/-- The sum of all similarities. -/
def total (f1 f2 : Feat) : EReal := ∑ p : Fin 9216, ∑ q : Fin 9216, sim f1 f2 p q
/-- The sum of the similarities of equally labelled pairs. -/
def pos (f1 f2 : Feat) (l1 l2 : Lab) : EReal := ∑ p : Fin 9216, ∑ q : Fin 9216, msim f1 f2 l1 l2 p q

/-- Tile `n` of the 8 × 8 tiling, in row-major order: rows of tile row `n / 8`, columns of tile column `n % 8`;
    its similarities summed. -/
def tileTotal (f1 f2 : Feat) (n : ℕ) : EReal :=
  ∑ a : Fin 1152, ∑ b : Fin 1152, sim f1 f2 (rowOf (n / 8) a) (rowOf (n % 8) b)
/-- The same for the equally labelled pairs of tile `n`. -/
def tilePos (f1 f2 : Feat) (l1 l2 : Lab) (n : ℕ) : EReal :=
  ∑ a : Fin 1152, ∑ b : Fin 1152, msim f1 f2 l1 l2 (rowOf (n / 8) a) (rowOf (n % 8) b)

/-- The whole sum is the 64 tile sums, taken in the order the grid visits the tiles. -/
theorem total_eq_steps (f1 f2 : Feat) : total f1 f2 = ∑ n ∈ Finset.range 64, tileTotal f1 f2 n := by
  unfold total tileTotal
  rw [sum_matrix_tiles, sum_steps (fun i j => ∑ a : Fin 1152, ∑ b : Fin 1152, sim f1 f2 (rowOf i a) (rowOf j b))]
theorem pos_eq_steps (f1 f2 : Feat) (l1 l2 : Lab) : pos f1 f2 l1 l2 = ∑ n ∈ Finset.range 64, tilePos f1 f2 l1 l2 n := by
  unfold pos tilePos
  rw [sum_matrix_tiles,
    sum_steps (fun i j => ∑ a : Fin 1152, ∑ b : Fin 1152, msim f1 f2 l1 l2 (rowOf i a) (rowOf j b))]

/-! ## From the arguments to the feature matrices and label vectors -/

/-- Image `0` of `x` as pixels by channels: slice, drop the unit axis, channels last, flatten the pixels. -/
def feat0 (x : (⟨4, ![4, 128, 96, 96]⟩ : Shape).Idx → EReal) : Feat :=
  shapeCast ⟨2, ![9216, 128]⟩ (transpose ⟨3, ![96, 96, 128]⟩ [1, 2, 0]
    (shapeCast ⟨3, ![128, 96, 96]⟩ (extractStridedSlice ⟨4, ![1, 128, 96, 96]⟩ ![0, 0, 0, 0] x)))
/-- Image `1` of `x`, likewise. -/
def feat1 (x : (⟨4, ![4, 128, 96, 96]⟩ : Shape).Idx → EReal) : Feat :=
  shapeCast ⟨2, ![9216, 128]⟩ (transpose ⟨3, ![96, 96, 128]⟩ [1, 2, 0]
    (shapeCast ⟨3, ![128, 96, 96]⟩ (extractStridedSlice ⟨4, ![1, 128, 96, 96]⟩ ![1, 0, 0, 0] x)))

/-- Label map `b` of `label` as a 96 × 96 array (`b = 0`). -/
def labMap0 (l : (⟨4, ![4, 1, 96, 96]⟩ : Shape).Idx → BitVec 32) : (⟨2, ![96, 96]⟩ : Shape).Idx → BitVec 32 :=
  shapeCast ⟨2, ![96, 96]⟩ (extractStridedSlice ⟨4, ![1, 1, 96, 96]⟩ ![0, 0, 0, 0] l)
/-- Label map `1` of `label` as a 96 × 96 array. -/
def labMap1 (l : (⟨4, ![4, 1, 96, 96]⟩ : Shape).Idx → BitVec 32) : (⟨2, ![96, 96]⟩ : Shape).Idx → BitVec 32 :=
  shapeCast ⟨2, ![96, 96]⟩ (extractStridedSlice ⟨4, ![1, 1, 96, 96]⟩ ![1, 0, 0, 0] l)

/-- A 96 × 96 label map read as 9216 labels in row-major order. -/
def flat (y : (⟨2, ![96, 96]⟩ : Shape).Idx → BitVec 32) : Lab :=
  fun p => shapeCast ⟨1, ![9216]⟩ y (by decide) (ix1 p)

/-- The scalar tail both programs end with: `-log (P / T) / 84934656`. -/
def lossTail (P T : (⟨0, ![]⟩ : Shape).Idx → EReal) : (⟨0, ![]⟩ : Shape).Idx → EReal :=
  Host.divf (F := Ideal) (φ := .f32) (Host.negf (F := Ideal) (Host.log (F := Ideal) (Host.divf (F := Ideal) P T)))
    (constant (F := Ideal) ⟨0, ![]⟩ .f32 0x4CA20000#32)

/-- The loss as one function of the two arguments. -/
def loss (x : (⟨4, ![4, 128, 96, 96]⟩ : Shape).Idx → EReal) (l : (⟨4, ![4, 1, 96, 96]⟩ : Shape).Idx → BitVec 32) :
    (⟨0, ![]⟩ : Shape).Idx → EReal :=
  lossTail (fun _ => pos (feat0 x) (feat1 x) (flat (labMap0 l)) (flat (labMap1 l))) (fun _ => total (feat0 x) (feat1 x))

end Cert.SupCon

end
-- ==== Proof.Blocks.lean ====
/-
  What the kernel's windows show of the four arrays the host lines before the call prepare.

  The call's operands are the two feature matrices (9216 pixels by 128 channels, images 0 and 1 of `x`), the
  first label map as a 9216 × 1 column and the second as a 1 × 9216 row. At grid step `t` the four windows show
  rows `1152 · (t / 8) + a` of the first matrix and of the column, and rows `1152 · (t % 8) + b` of the second
  matrix and entries `1152 · (t % 8) + b` of the row: a block's coordinate is always block index times block
  size plus the coordinate inside the block. The matrices are the specification's `feat0 x`, `feat1 x`; the
  column and the row hold, at pixel `p`, the specification's flattened label maps at `p` (a reshape keeps the
  row-major position, and position `p` of a 9216 × 1 or 1 × 9216 array is its `p`-th entry).
-/
import proofs.«119153_j46531675685457_1_alg».proof.Proof.Gen.KernelIdeal.Frame
import proofs.«119153_j46531675685457_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.SupCon

variable (m : (ℓ : Loc nD τ sig) → Buf (Elt Ideal) ℓ)

/-- The four arrays as the call finds them, at their literal types. -/
abbrev f1 (c : Dev nD) : Feat := V m c main_v3
abbrev f2 (c : Dev nD) : Feat := V m c main_v7
abbrev g1 (c : Dev nD) : S9216x1.Idx → BitVec 32 := V m c main_v10
abbrev g2 (c : Dev nD) : S1x9216.Idx → BitVec 32 := V m c main_v13

/-- The label of pixel `p` of the first image, and of pixel `q` of the second, as the call's operands hold them. -/
def l1 (c : Dev nD) : Lab := fun p => g1 m c (ix2 p 0)
def l2 (c : Dev nD) : Lab := fun q => g2 m c (ix2 0 q)

/-- The four windows' blocks at step `t`, at their literal types. -/
abbrev xb0 (c : Dev nD) (t : Fin cfg0.N) : Vec Ideal S1152x128 .f32 := iblk m c 0 t
abbrev xb1 (c : Dev nD) (t : Fin cfg0.N) : Vec Ideal S1152x128 .f32 := iblk m c 1 t
abbrev xb2 (c : Dev nD) (t : Fin cfg0.N) : Vec Ideal S1152x1 .i32 := iblk m c 2 t
abbrev xb3 (c : Dev nD) (t : Fin cfg0.N) : Vec Ideal S1x1152 .i32 := iblk m c 3 t

/-! ## The block indices over the grid -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)

/-! ## The blocks read at an entry -/

theorem xb0_apply (c : Dev nD) (t : Fin cfg0.N) (a : Fin 1152) (k : Fin 128) :
    xb0 m c t (ix2 a k) = f1 m c (ix2 (rowOf (t.val / 8) a) k) := by
  have hN : t.val < 64 := lt_of_lt_of_eq t.isLt (show cfg0.N = 64 from N_0)
  show ((cfg0.win 0).blk t).view.read (Elt Ideal) (V m c (Pipeline.arrRef spec0 0)) (ix2 a k) = _
  rw [View.read_apply]
  show V m c main_v3 _ = V m c main_v3 _
  refine congrArg (V m c main_v3) (funext fun d => Fin.ext ?_)
  match d with
  | ⟨0, _⟩ =>
    show win0_0.index t 0 * 1152 + 1 * a.val = 1152 * (t.val / 8 % 8) + a.val
    rw [(idx0 t).1]; omega
  | ⟨1, _⟩ =>
    show win0_0.index t 1 * 128 + 1 * k.val = k.val
    rw [(idx0 t).2]; omega

theorem xb1_apply (c : Dev nD) (t : Fin cfg0.N) (b : Fin 1152) (k : Fin 128) :
    xb1 m c t (ix2 b k) = f2 m c (ix2 (rowOf (t.val % 8) b) k) := by
  show ((cfg0.win 1).blk t).view.read (Elt Ideal) (V m c (Pipeline.arrRef spec0 1)) (ix2 b k) = _
  rw [View.read_apply]
  show V m c main_v7 _ = V m c main_v7 _
  refine congrArg (V m c main_v7) (funext fun d => Fin.ext ?_)
  match d with
  | ⟨0, _⟩ =>
    show win0_1.index t 0 * 1152 + 1 * b.val = 1152 * (t.val % 8 % 8) + b.val
    rw [(idx1 t).1]; omega
  | ⟨1, _⟩ =>
    show win0_1.index t 1 * 128 + 1 * k.val = k.val
    rw [(idx1 t).2]; omega

theorem xb2_apply (c : Dev nD) (t : Fin cfg0.N) (a : Fin 1152) :
    xb2 m c t (ix2 a 0) = l1 m c (rowOf (t.val / 8) a) := by
  have hN : t.val < 64 := lt_of_lt_of_eq t.isLt (show cfg0.N = 64 from N_0)
  show ((cfg0.win 2).blk t).view.read (Elt Ideal) (V m c (Pipeline.arrRef spec0 2)) (ix2 a 0) = _
  rw [View.read_apply]
  show V m c main_v10 _ = V m c main_v10 _
  refine congrArg (V m c main_v10) (funext fun d => Fin.ext ?_)
  match d with
  | ⟨0, _⟩ =>
    show win0_2.index t 0 * 1152 + 1 * a.val = 1152 * (t.val / 8 % 8) + a.val
    rw [(idx2 t).1]; omega
  | ⟨1, _⟩ =>
    show win0_2.index t 1 * 1 + 1 * 0 = 0
    rw [(idx2 t).2]

theorem xb3_apply (c : Dev nD) (t : Fin cfg0.N) (b : Fin 1152) :
    xb3 m c t (ix2 0 b) = l2 m c (rowOf (t.val % 8) b) := by
  show ((cfg0.win 3).blk t).view.read (Elt Ideal) (V m c (Pipeline.arrRef spec0 3)) (ix2 0 b) = _
  rw [View.read_apply]
  show V m c main_v13 _ = V m c main_v13 _
  refine congrArg (V m c main_v13) (funext fun d => Fin.ext ?_)
  match d with
  | ⟨0, _⟩ =>
    show win0_3.index t 0 * 1 + 1 * 0 = 0
    rw [(idx3 t).1]
  | ⟨1, _⟩ =>
    show win0_3.index t 1 * 1152 + 1 * b.val = 1152 * (t.val % 8 % 8) + b.val
    rw [(idx3 t).2]; omega

/-! ## The arrays as functions of the arguments -/

theorem f1_eq (c : Dev nD) : f1 m c = feat0 (m ((c : Thread nD τ).loc main_arg0)) := by
  show (V m c main_v3 : S9216x128.Idx → EReal) = _
  dsimp only [Gen.V, Gen.V0]
  simp only [Gen.hostOps0, List.flatten_cons, List.flatten_nil, List.append_nil, List.cons_append, List.nil_append]
  after_results
  rfl

theorem f2_eq (c : Dev nD) : f2 m c = feat1 (m ((c : Thread nD τ).loc main_arg0)) := by
  show (V m c main_v7 : S9216x128.Idx → EReal) = _
  dsimp only [Gen.V, Gen.V0]
  simp only [Gen.hostOps0, List.flatten_cons, List.flatten_nil, List.append_nil, List.cons_append, List.nil_append]
  after_results
  rfl

theorem g1_eq (c : Dev nD) :
    g1 m c = shapeCast S9216x1 (labMap0 (m ((c : Thread nD τ).loc main_arg1))) shapeCasts_S96x96_S9216x1 := by
  show (V m c main_v10 : S9216x1.Idx → BitVec 32) = _
  dsimp only [Gen.V, Gen.V0]
  simp only [Gen.hostOps0, List.flatten_cons, List.flatten_nil, List.append_nil, List.cons_append, List.nil_append]
  after_results
  rfl

theorem g2_eq (c : Dev nD) :
    g2 m c = shapeCast S1x9216 (labMap1 (m ((c : Thread nD τ).loc main_arg1))) shapeCasts_S96x96_S1x9216 := by
  show (V m c main_v13 : S1x9216.Idx → BitVec 32) = _
  dsimp only [Gen.V, Gen.V0]
  simp only [Gen.hostOps0, List.flatten_cons, List.flatten_nil, List.append_nil, List.cons_append, List.nil_append]
  after_results
  rfl

/-- The column's `p`-th entry is the flattened first label map at `p`. -/
theorem l1_eq (c : Dev nD) : l1 m c = flat (labMap0 (m ((c : Thread nD τ).loc main_arg1))) := by
  funext p
  unfold l1 flat
  rw [g1_eq]
  unfold shapeCast
  refine congrArg _ (Shape.reshapeEquiv_eq_of_rowMajor _ ?_)
  rw [Shape.rowMajor_reshapeEquiv, Shape.rowMajor_val_one, Shape.rowMajor_val_two]
  show p.val = p.val * 1 + 0
  omega

/-- The row's `q`-th entry is the flattened second label map at `q`. -/
theorem l2_eq (c : Dev nD) : l2 m c = flat (labMap1 (m ((c : Thread nD τ).loc main_arg1))) := by
  funext q
  unfold l2 flat
  rw [g2_eq]
  unfold shapeCast
  refine congrArg _ (Shape.reshapeEquiv_eq_of_rowMajor _ ?_)
  rw [Shape.rowMajor_reshapeEquiv, Shape.rowMajor_val_one, Shape.rowMajor_val_two]
  show q.val = 0 * 9216 + q.val
  omega

end Cert.KernelIdeal.Blocks

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.TileValue.lean ====
/-
  One tile of the kernel's work, as sums over the tile's entries.

  At a grid step the body holds a 1152 × 128 block of each feature matrix, a 1152 × 1 block of the first labels
  and a 1 × 1152 block of the second. It forms the 1152 × 1152 tile of similarities — entry (a, b) is the
  exponential of the inner product of row a of the first block and row b of the second, scaled by the inverse
  temperature —, keeps in a second copy only the entries whose two labels agree, and reduces each copy to one
  number: along the rows, then down the column of row sums. Read at the ideal values these two numbers are the
  double sums over (a, b) of the entries.
-/
import proofs.«119153_j46531675685457_1_alg».proof.Proof.Gen.KernelIdeal.Skeleton
import proofs.«119153_j46531675685457_1_alg».proof.Proof.Spec
import proofs.«119153_j46531675685457_1_alg».proof.Proof.LibDot
import Idealize.ShloMosaic.Lib.ValueLayout
import Idealize.ShloMosaic.Lib.Pipeline.Value

noncomputable section

namespace Cert.KernelIdeal.TileValue

open Cert.KernelIdeal Cert.KernelIdeal.Gen Cert.SupCon
open Idealize.ShloMosaic Idealize.ShloMosaic.ValueIdx

/-- One tile's similarity at offsets (a, b), from the two feature blocks. -/
def blockSim (x0 x1 : Vec Ideal S1152x128 .f32) (a b : Fin 1152) : EReal :=
  Ideal.exp ((∑ k : Fin 128, x0 (ix2 a k) * x1 (ix2 b k)) * scale)

/-- The named inverse temperature is `scale` at the ideal values. -/
theorem named_scale :
    Named.named (F := Ideal) Cert.KernelIdeal.κ "inv_temperature" (φ := .f32) 0x41C80000#32 = scale :=
  IdealRules.named_const.ideal_named_scalar _ _ _ _ rfl

/-- Entry `(a, b)` of the tile of similarities: both blocks pass the format change unchanged, the second is
    transposed, so the product's entry is the inner product of row `a` of the first block and row `b` of the second;
    it is scaled by the inverse temperature and exponentiated. -/
theorem pay5_apply (x0 x1 : Vec Ideal S1152x128 .f32) (a b : Fin 1152) :
    k0_pay5 (F := Ideal) x0 x1 (ix2 a b) = blockSim x0 x1 a b := by
  unfold k0_pay5 blockSim
  simp only [shapeCast_self]
  show Ideal.exp (FloatOps.matmul (F := Ideal) (DotDims.plain 1152 128 1152) none
      (truncf (F := Ideal) .bf16 (x0 : FVec Ideal S1152x128 .f32) bitsLt_bf16_f32)
      (transpose S128x1152 [1, 0] (truncf (F := Ideal) .bf16 (x1 : FVec Ideal S1152x128 .f32) bitsLt_bf16_f32)
        transposes_S1152x128_p1_0_S128x1152)
      (constant (F := Ideal) ⟨2, ![1152, 1152]⟩ .f32 0x00000000#32) (ix2 a b)
      * Named.named (F := Ideal) Cert.KernelIdeal.κ "inv_temperature" (φ := .f32) 0x41C80000#32) = _
  rw [Cert.GNN.matmul_plain_zero_apply, named_scale]
  refine congrArg (fun t => Ideal.exp (t * scale)) (Finset.sum_congr rfl fun k _ => ?_)
  rw [transpose_ix2_apply]
  rfl

/-- The index of the square array over row `a` with column `b` put back is `(a, b)`. -/
theorem lift_row (a b : Fin 1152) : reduces_S1152x1152_S1152.lift (ix1 a) b = ix2 a b :=
  funext fun c => match c with
    | ⟨0, _⟩ => Fin.ext rfl
    | ⟨1, _⟩ => Fin.ext rfl

/-- The index of the column array over its one reduced index with row `a` put back is `(a, 0)`. -/
theorem lift_col (i : Fin 1) (a : Fin 1152) : reduces_S1152x1_S1.lift (ix1 i) a = ix2 a i :=
  funext fun c => match c with
    | ⟨0, _⟩ => Fin.ext rfl
    | ⟨1, _⟩ => Fin.ext rfl

/-- A vector of 1152 entries viewed as a column reads, at `(a, i)`, its entry `a`. -/
theorem col_apply {α : Type} (v : S1152.Idx → α) (a : Fin 1152) (i : Fin 1) :
    shapeCast S1152x1 v shapeCasts_S1152_S1152x1 (ix2 a i) = v (ix1 a) :=
  shapeCast_apply v _ _ _ (by
    have hi : i.val = 0 := by omega
    rw [Shape.rowMajor_val_one, Shape.rowMajor_val_two]
    show a.val = a.val * 1 + i.val
    rw [hi, Nat.mul_one, Nat.add_zero])

/-- Summing a 1152 × 1152 array along its rows, viewing the row sums as a column, summing that column and viewing
    the one number as a 1 × 1 array gives, at its one index, the sum of all entries, rows outermost. -/
theorem sum_rows_then_col (G : FVec Ideal S1152x1152 .f32) :
    shapeCast S1x1
      (multiReduction (F := Ideal) .add [0] S1
        (shapeCast S1152x1
          (multiReduction (F := Ideal) .add [1] S1152 G 0x00000000#32 reduces_S1152x1152_S1152 (.inl rfl) rfl)
          shapeCasts_S1152_S1152x1)
        0x00000000#32 reduces_S1152x1_S1 (.inl rfl) rfl)
      shapeCasts_S1_S1x1
    = fun _ => ∑ a : Fin 1152, ∑ b : Fin 1152, G (ix2 a b) := by
  funext j
  obtain ⟨u, i, rfl⟩ : ∃ u i, j = ix2 u i := ⟨j 0, j 1, eq_ix2 j⟩
  refine (shapeCast_a_1a_apply _ _ u i).trans ?_
  refine (Ideal.multiReduction_add_single _ _ _ _ _ _).trans ?_
  show (∑ a : Fin 1152, _) = _
  refine Finset.sum_congr rfl fun a _ => ?_
  rw [lift_col, col_apply]
  refine (Ideal.multiReduction_add_single _ _ _ _ _ _).trans ?_
  show (∑ b : Fin 1152, _) = _
  refine Finset.sum_congr rfl fun b _ => ?_
  rw [lift_row]

/-- A column broadcast across the columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(a, b)` of the masked tile: the similarity where row label `a` equals column label `b`, zero elsewhere. -/
theorem masked_apply (x0 x1 : Vec Ideal S1152x128 .f32) (x2 : Vec Ideal S1152x1 .i32) (x3 : Vec Ideal S1x1152 .i32)
    (a b : Fin 1152) :
    select
        (cmpi .eq
          (broadcastTo S1152x1152 (shapeCast S1152x1 x2 shapeCasts_S1152x1_S1152x1) broadcasts_S1152x1_S1152x1152)
          (broadcastTo S1152x1152 (shapeCast S1x1152 x3 shapeCasts_S1x1152_S1x1152) broadcasts_S1x1152_S1152x1152))
        (k0_pay5 (F := Ideal) x0 x1) (broadcast S1152x1152 (Scalar.ofBits (F := Ideal) .f32 0x00000000#32)) (ix2 a b)
      = Scalar.select (IntOp.cmpi .eq (x2 (ix2 a 0)) (x3 (ix2 0 b))) (blockSim x0 x1 a b) 0 := by
  rw [select_apply, pay5_apply, broadcast_apply]
  simp only [shapeCast_self]
  show Scalar.select
      (IntOp.cmpi .eq (broadcastTo S1152x1152 x2 broadcasts_S1152x1_S1152x1152 (ix2 a b))
        (broadcastTo S1152x1152 x3 broadcasts_S1x1152_S1152x1152 (ix2 a b)))
      (blockSim x0 x1 a b) (Ideal.ofBits .f32 0x00000000#32) = _
  rw [broadcastTo_a1_ab_apply, broadcastTo_1b_ab_apply, Ideal.ofBits_zero_f32]

theorem pay7_eq (x0 x1 : Vec Ideal S1152x128 .f32) :
    k0_pay7 (F := Ideal) x0 x1 = fun _ => ∑ a : Fin 1152, ∑ b : Fin 1152, blockSim x0 x1 a b := by
  unfold k0_pay7
  refine (sum_rows_then_col (k0_pay5 (F := Ideal) x0 x1)).trans ?_
  funext _
  exact Finset.sum_congr rfl fun a _ => Finset.sum_congr rfl fun b _ => pay5_apply x0 x1 a b

theorem pay6_eq (x0 x1 : Vec Ideal S1152x128 .f32) (x2 : Vec Ideal S1152x1 .i32) (x3 : Vec Ideal S1x1152 .i32) :
    k0_pay6 (F := Ideal) x0 x1 x2 x3
      = fun _ => ∑ a : Fin 1152, ∑ b : Fin 1152,
          Scalar.select (IntOp.cmpi .eq (x2 (ix2 a 0)) (x3 (ix2 0 b))) (blockSim x0 x1 a b) 0 := by
  unfold k0_pay6
  refine (sum_rows_then_col _).trans ?_
  funext _
  exact Finset.sum_congr rfl fun a _ => Finset.sum_congr rfl fun b _ => masked_apply x0 x1 x2 x3 a b

end Cert.KernelIdeal.TileValue

end
-- ==== Proof.Chain.lean ====
/-
  The two accumulators after every grid step, and the two outputs after the last.

  Step `t` of the 64 visits tile (t / 8, t % 8). The first accumulator starts at zero and gains the tile's sum of
  similarities of equally labelled pairs, the second the tile's sum of all similarities; so after step `n` they
  hold the sums of tiles `0 … n` — by induction on the step, the three cases of the body (first, middle, last)
  each adding one tile — and after step 63 the sums over the whole matrix, which the last step also stores into
  the two one-word outputs.
-/
import proofs.«119153_j46531675685457_1_alg».proof.Proof.Cases
import proofs.«119153_j46531675685457_1_alg».proof.Proof.Blocks
import proofs.«119153_j46531675685457_1_alg».proof.Proof.TileValue

noncomputable section

open Idealize.ShloMosaic Idealize.ShloMosaic.TcCoe Idealize.SL.Sem Idealize.ShloMosaic.ValueIdx

namespace Cert.KernelIdeal.Chain

open Cert.KernelIdeal Cert.KernelIdeal.Gen Cert.SupCon Cert.KernelIdeal.Blocks Cert.KernelIdeal.TileValue

variable (m : (ℓ : Loc nD τ sig) → Buf (Elt Ideal) ℓ)

/-! ## One step's tile sums, from the blocks the windows show -/

/-- The masked sum the body forms at step `t` is the specification's sum over tile `t`. -/
theorem tile_pos (c : Dev nD) (t : Fin cfg0.N) :
    k0_pay6 (F := Ideal) (xb0 m c t) (xb1 m c t) (xb2 m c t) (xb3 m c t)
      = fun _ => tilePos (f1 m c) (f2 m c) (l1 m c) (l2 m c) t.val := by
  rw [pay6_eq]
  funext _
  unfold tilePos msim sim blockSim
  refine Finset.sum_congr rfl fun a _ => Finset.sum_congr rfl fun b _ => ?_
  rw [xb2_apply, xb3_apply]
  simp only [xb0_apply, xb1_apply]

/-- The plain sum the body forms at step `t` is the specification's sum over tile `t`. -/
theorem tile_tot (c : Dev nD) (t : Fin cfg0.N) :
    k0_pay7 (F := Ideal) (xb0 m c t) (xb1 m c t) = fun _ => tileTotal (f1 m c) (f2 m c) t.val := by
  rw [pay7_eq]
  funext _
  unfold tileTotal sim blockSim
  refine Finset.sum_congr rfl fun a _ => Finset.sum_congr rfl fun b _ => ?_
  simp only [xb0_apply, xb1_apply]

/-! ## The body's scalar updates -/

/-- The update of an accumulator: the old word plus the tile's word. -/
theorem pay1_eq (v31 v36 : Vec Ideal S1x1 .f32) : k0_pay1 (F := Ideal) v31 v36 = fun j => v36 j + v31 j := by
  unfold k0_pay1
  dsimp only
  rw [shapeCast_self]
  rfl
theorem pay2_eq (v35 v41 : Vec Ideal S1x1 .f32) : k0_pay2 (F := Ideal) v35 v41 = fun j => v41 j + v35 j := by
  unfold k0_pay2
  dsimp only
  rw [shapeCast_self]
  rfl
/-- The reset stores zero. -/
theorem pay3_eq : k0_pay3 (F := Ideal) = fun _ => 0 := by
  show shapeCast S1x1 (broadcast S1x1 (Scalar.ofBits (F := Ideal) .f32 0x00000000#32)) shapeCasts_S1x1_S1x1 = _
  rw [shapeCast_self]
  funext _
  exact Ideal.ofBits_zero_f32
theorem pay4_eq : k0_pay4 (F := Ideal) = fun _ => 0 := by
  show shapeCast S1x1 (broadcast S1x1 (Scalar.ofBits (F := Ideal) .f32 0x00000000#32)) shapeCasts_S1x1_S1x1 = _
  rw [shapeCast_self]
  funext _
  exact Ideal.ofBits_zero_f32

/-! ## The accumulators step by step -/

/-- The tiles `0 … n` summed: equally labelled pairs, and all pairs. -/
def posAcc (c : Dev nD) (n : ℕ) : EReal := ∑ t ∈ Finset.range (n + 1), tilePos (f1 m c) (f2 m c) (l1 m c) (l2 m c) t
def totAcc (c : Dev nD) (n : ℕ) : EReal := ∑ t ∈ Finset.range (n + 1), tileTotal (f1 m c) (f2 m c) t

/-- The first step leaves `0 + tile 0` in each accumulator. -/
theorem step_first (c : Dev nD) (t : Fin cfg0.N) (h0 : t.val % 64 = 0) (h1 : ¬t.val % 64 = 63) :
    (outsAt0 m c t.val t.isLt).2.2.1 = (fun _ => 0 + tilePos (f1 m c) (f2 m c) (l1 m c) (l2 m c) t.val)
    ∧ (outsAt0 m c t.val t.isLt).2.2.2 = (fun _ => 0 + tileTotal (f1 m c) (f2 m c) t.val) := by
  rw [outsAt0_A m c t h0 h1]
  dsimp only
  constructor
  · refine (Cases.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).trans ?_
    rw [pay1_eq, pay3_eq, tile_pos m c t]
  · refine (Cases.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).trans ?_
    rw [pay2_eq, pay4_eq, tile_tot m c t]

/-- A middle step adds its tile to what the step before left. -/
theorem step_mid (c : Dev nD) (t : Fin cfg0.N) (h0 : ¬t.val % 64 = 0) (h1 : ¬t.val % 64 = 63) :
    (outsAt0 m c t.val t.isLt).2.2.1
        = (fun j => (outsAt0 m c (t.val - 1) (Nat.lt_of_le_of_lt (Nat.sub_le _ _) t.isLt)).2.2.1 j + tilePos (f1 m c) (f2 m c) (l1 m c) (l2 m c) t.val)
    ∧ (outsAt0 m c t.val t.isLt).2.2.2
        = (fun j => (outsAt0 m c (t.val - 1) (Nat.lt_of_le_of_lt (Nat.sub_le _ _) t.isLt)).2.2.2 j + tileTotal (f1 m c) (f2 m c) t.val) := by
  rw [outsAt0_B m c t h0 h1]
  dsimp only
  constructor
  · refine (Cases.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [pay1_eq, tile_pos m c t]
  · refine (Cases.sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [pay2_eq, tile_tot m c t]

/-- The last step does the same, and the outputs take the accumulators' new values. -/
theorem step_last (c : Dev nD) (t : Fin cfg0.N) (h0 : ¬t.val % 64 = 0) (h1 : t.val % 64 = 63) :
    ((outsAt0 m c t.val t.isLt).2.2.1
        = (fun j => (outsAt0 m c (t.val - 1) (Nat.lt_of_le_of_lt (Nat.sub_le _ _) t.isLt)).2.2.1 j + tilePos (f1 m c) (f2 m c) (l1 m c) (l2 m c) t.val)
    ∧ (outsAt0 m c t.val t.isLt).2.2.2
        = (fun j => (outsAt0 m c (t.val - 1) (Nat.lt_of_le_of_lt (Nat.sub_le _ _) t.isLt)).2.2.2 j + tileTotal (f1 m c) (f2 m c) t.val))
    ∧ (outsAt0 m c t.val t.isLt).1
        = (fun j => (outsAt0 m c (t.val - 1) (Nat.lt_of_le_of_lt (Nat.sub_le _ _) t.isLt)).2.2.1 j + tilePos (f1 m c) (f2 m c) (l1 m c) (l2 m c) t.val)
    ∧ (outsAt0 m c t.val t.isLt).2.1
        = (fun j => (outsAt0 m c (t.val - 1) (Nat.lt_of_le_of_lt (Nat.sub_le _ _) t.isLt)).2.2.2 j + tileTotal (f1 m c) (f2 m c) t.val) := by
  rw [outsAt0_C m c t h0 h1]
  dsimp only
  refine ⟨⟨?_, ?_⟩, ?_, ?_⟩
  · refine (Cases.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [pay1_eq, tile_pos m c t]
  · refine (Cases.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [pay2_eq, tile_tot m c t]
  · refine (Cases.out_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [pay1_eq, tile_pos m c t]
  · refine (Cases.out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [pay2_eq, tile_tot m c t]

/-- After step `n` the accumulators hold the sums of tiles `0 … n`. -/
theorem acc_eq (c : Dev nD) : ∀ (n : ℕ) (h : n < cfg0.N),
    (outsAt0 m c n h).2.2.1 = (fun _ => posAcc m c n) ∧ (outsAt0 m c n h).2.2.2 = (fun _ => totAcc m c n)
  | 0, h => by
    obtain ⟨e1, e2⟩ := step_first m c ⟨0, h⟩ rfl (by dsimp only; omega)
    refine ⟨e1.trans ?_, e2.trans ?_⟩
    · funext _; unfold posAcc; rw [Finset.sum_range_one, zero_add]
    · funext _; unfold totAcc; rw [Finset.sum_range_one, zero_add]
  | n + 1, h => by
    have hN : cfg0.N = 64 := N_0
    obtain ⟨ih1, ih2⟩ := acc_eq c n (Nat.lt_of_succ_lt h)
    have h0 : ¬(⟨n + 1, h⟩ : Fin cfg0.N).val % 64 = 0 := by dsimp only; omega
    have key : (outsAt0 m c (n + 1) h).2.2.1 = (fun j => (outsAt0 m c n (Nat.lt_of_succ_lt h)).2.2.1 j + tilePos (f1 m c) (f2 m c) (l1 m c) (l2 m c) (n + 1))
        ∧ (outsAt0 m c (n + 1) h).2.2.2 = (fun j => (outsAt0 m c n (Nat.lt_of_succ_lt h)).2.2.2 j + tileTotal (f1 m c) (f2 m c) (n + 1)) := by
      by_cases h1 : (⟨n + 1, h⟩ : Fin cfg0.N).val % 64 = 63
      · exact (step_last m c ⟨n + 1, h⟩ h0 h1).1
      · exact step_mid m c ⟨n + 1, h⟩ h0 h1
    obtain ⟨e1, e2⟩ := key
    refine ⟨e1.trans ?_, e2.trans ?_⟩
    · rw [ih1]; funext _; unfold posAcc; rw [Finset.sum_range_succ _ (n + 1)]
    · rw [ih2]; funext _; unfold totAcc; rw [Finset.sum_range_succ _ (n + 1)]

/-- After the last step the two outputs' buffers hold the sums over the whole matrix. -/
theorem out_last (c : Dev nD) (t : Fin cfg0.N) (h63 : t.val = 63) :
    (outsAt0 m c t.val t.isLt).1 = (fun _ => pos (f1 m c) (f2 m c) (l1 m c) (l2 m c))
    ∧ (outsAt0 m c t.val t.isLt).2.1 = (fun _ => total (f1 m c) (f2 m c)) := by
  have h0 : ¬t.val % 64 = 0 := by omega
  have h1 : t.val % 64 = 63 := by omega
  obtain ⟨⟨a1, a2⟩, o1, o2⟩ := step_last m c t h0 h1
  obtain ⟨b1, b2⟩ := acc_eq m c t.val t.isLt
  refine ⟨o1.trans (a1.symm.trans (b1.trans ?_)), o2.trans (a2.symm.trans (b2.trans ?_))⟩
  · funext _; unfold posAcc; rw [h63, pos_eq_steps]
  · funext _; unfold totAcc; rw [h63, total_eq_steps]

end Cert.KernelIdeal.Chain

end
-- ==== Proof.Final.lean ====
/-
  The idealized kernel's run, read: its scalar result is the specification's loss of the two arguments.

  Each of the call's two one-word outputs is written back once, after the last grid step, and that one block is
  the whole array; so after the call the two arrays hold the sum of the similarities of equally labelled pairs and
  the sum of all similarities (Chain.lean). The five host lines after the call reshape the two words to scalars
  and form `-log (pos / total) / 9216²`: the specification's scalar tail. With the four operand arrays written as
  the specification's functions of `x` and `label` (Blocks.lean) the result is `loss x label`.
-/
import proofs.«119153_j46531675685457_1_alg».proof.Proof.Chain
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.SupCon Cert.KernelIdeal.Blocks Cert.KernelIdeal.Chain

variable (m : (ℓ : Loc nD τ sig) → Buf (Elt Ideal) ℓ) (ρ : Dev nD → PrngReg)

/-- The two sums as contents of the two one-word output arrays. -/
abbrev posArr (c : Dev nD) : Buf (Elt Ideal) ((c : Thread nD τ).loc main_v14_0) :=
  fun _ => pos (f1 m c) (f2 m c) (l1 m c) (l2 m c)
abbrev totArr (c : Dev nD) : Buf (Elt Ideal) ((c : Thread nD τ).loc main_v14_1) :=
  fun _ => total (f1 m c) (f2 m c)

/-! ## The one write-back of each output, after step 63 -/

theorem flushed4_eq (c : Dev nD) (t : Fin cfg0.N) (hf : (cfg0.win 4).flush t = true) :
    (dats m 0 c).flushed 4 t = ((cfg0.win 4).blk t).view.read (Elt Ideal) (posArr m c) := by
  have hN : cfg0.N = 64 := N_0
  have h63 : t.val = 63 := by have := (flush0_4 t).mp hf; have := t.isLt; omega
  show (cfg0.win 4).cut (grid0.coords t) ((dats m 0 c).after 4 t) = _
  rw [after0_4, (out_last m c t h63).1]
  funext y
  rw [View.read_apply]
  rfl

theorem flushed5_eq (c : Dev nD) (t : Fin cfg0.N) (hf : (cfg0.win 5).flush t = true) :
    (dats m 0 c).flushed 5 t = ((cfg0.win 5).blk t).view.read (Elt Ideal) (totArr m c) := by
  have hN : cfg0.N = 64 := N_0
  have h63 : t.val = 63 := by have := (flush0_5 t).mp hf; have := t.isLt; omega
  show (cfg0.win 5).cut (grid0.coords t) ((dats m 0 c).after 5 t) = _
  rw [after0_5, (out_last m c t h63).2]
  funext y
  rw [View.read_apply]
  rfl

theorem t63_lt : 63 < cfg0.N := by rw [show cfg0.N = 64 from N_0]; decide
/-- The last grid step. -/
abbrev t63 : Fin cfg0.N := ⟨63, t63_lt⟩

/-- The first output array after the call: the sum over the equally labelled pairs. -/
theorem final4 (c : Dev nD) : (dats m 0 c).arrAt 4 cfg0.N = posArr m c :=
  (dats m 0 c).arrAt_eq_of_cover 4 (posArr m c) (flushed4_eq m c) fun i =>
    ⟨t63, (flush0_4 t63).mpr rfl, by
      show i ∈ ((View.whole main_v14_0).slice (win0_4.rect t63)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t63 0 * win0_4.size 0 ≤ (i 0 : Nat) ∧ (i 0 : Nat) < win0_4.index t63 0 * win0_4.size 0 + win0_4.xsize (grid0.coords t63) 0
        rw [show win0_4.index t63 0 * win0_4.size 0 = 0 from by decide +kernel, show win0_4.xsize (grid0.coords t63) 0 = 1 from by decide +kernel]; omega
      | ⟨1, _⟩ =>
        show win0_4.index t63 1 * win0_4.size 1 ≤ (i 1 : Nat) ∧ (i 1 : Nat) < win0_4.index t63 1 * win0_4.size 1 + win0_4.xsize (grid0.coords t63) 1
        rw [show win0_4.index t63 1 * win0_4.size 1 = 0 from by decide +kernel, show win0_4.xsize (grid0.coords t63) 1 = 1 from by decide +kernel]; omega⟩

/-- The second output array after the call: the sum over all pairs. -/
theorem final5 (c : Dev nD) : (dats m 0 c).arrAt 5 cfg0.N = totArr m c :=
  (dats m 0 c).arrAt_eq_of_cover 5 (totArr m c) (flushed5_eq m c) fun i =>
    ⟨t63, (flush0_5 t63).mpr rfl, by
      show i ∈ ((View.whole main_v14_1).slice (win0_5.rect t63)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index t63 0 * win0_5.size 0 ≤ (i 0 : Nat) ∧ (i 0 : Nat) < win0_5.index t63 0 * win0_5.size 0 + win0_5.xsize (grid0.coords t63) 0
        rw [show win0_5.index t63 0 * win0_5.size 0 = 0 from by decide +kernel, show win0_5.xsize (grid0.coords t63) 0 = 1 from by decide +kernel]; omega
      | ⟨1, _⟩ =>
        show win0_5.index t63 1 * win0_5.size 1 ≤ (i 1 : Nat) ∧ (i 1 : Nat) < win0_5.index t63 1 * win0_5.size 1 + win0_5.xsize (grid0.coords t63) 1
        rw [show win0_5.index t63 1 * win0_5.size 1 = 0 from by decide +kernel, show win0_5.xsize (grid0.coords t63) 1 = 1 from by decide +kernel]; omega⟩

/-! ## The host lines after the call -/

/-- The scalar the program returns, from the two sums. -/
theorem tail_eq (c : Dev nD) :
    Pipeline.afterTail₀ cfgs (dats m) 0 (V0 m) [hostOps1] c main_v20
      = lossTail (fun _ => pos (f1 m c) (f2 m c) (l1 m c) (l2 m c)) (fun _ => total (f1 m c) (f2 m c)) := by
  unfold Pipeline.afterTail₀
  show StableHlo.after hostOps1 _ (Proc.devRef .tc main_v20) = _
  after_results
  have e4 : Pipeline.withArrays (cfgs 0).spec c (V0 m c) (fun w => (dats m 0 c).arrAt w (cfgs 0).N) (Proc.devRef .tc main_v14_0)
      = posArr m c := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v14_1)
      = totArr m c := (Pipeline.withArrays_arr spec0 launch0.win.arr_inj c _ _ 5).trans (final5 m c)
  rw [e4, e5]
  rfl

/-- The same as the specification's loss of the two arguments. -/
theorem result_eq (c : Dev nD) :
    Pipeline.afterTail₀ cfgs (dats m) 0 (V0 m) [hostOps1] c main_v20
      = loss (m ((c : Thread nD τ).loc main_arg0)) (m ((c : Thread nD τ).loc main_arg1)) := by
  rw [tail_eq, f1_eq, f2_eq, l1_eq, l2_eq]
  rfl

/-! ## The run -/

/-- Every weakly fair execution of the idealized kernel program ends with its result at the loss of the
    arguments, the arguments unchanged. -/
theorem run : θ_run defs (onTc (τ := τ) (main (F := Ideal))) ⟨m, fun _ => 0, ρ⟩ fun r => ∀ c : Dev nD,
      r.2.mem ((c.tc : Thread nD τ).loc main_v20)
        = loss (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference program's value is the supervised contrastive loss of the specification.

  The reference forms the whole 9216 × 9216 similarity matrix in one piece. Read entry by entry: the product of the
  first feature matrix with the transposed second is, at (p, q), the inner product of row p and row q; dividing it by
  the temperature word D = 5368709 / 2²⁷ is multiplying by 1 / D, the inverse temperature; the exponential of that is
  the similarity of pixel p and pixel q. The label maps, flattened row-major, are laid along the rows and along the
  columns, so the comparison at (p, q) is between label p of the first image and label q of the second, and the
  selected matrix keeps the similarity where they agree and has zero elsewhere. A sum of a matrix over both axes,
  started at zero, is the double sum over rows and columns; so the two reductions are the specification's sums over
  equally labelled pairs and over all pairs, and the last four scalar operations are its scalar tail on those two sums.
-/
import proofs.«119153_j46531675685457_1_alg».proof.Proof.Gen.ReferenceIdeal.Run
import proofs.«119153_j46531675685457_1_alg».proof.Proof.Gen.ReferenceIdeal.Read
import proofs.«119153_j46531675685457_1_alg».proof.Proof.Spec
import proofs.«119153_j46531675685457_1_alg».proof.Proof.LibDot
import Idealize.ShloMosaic.Lib.ValueLayout

noncomputable section

namespace Cert.ReferenceIdeal.RefValue

open Cert.ReferenceIdeal Cert.ReferenceIdeal.Gen Cert.ReferenceIdeal.Read Cert.SupCon
open Idealize.ShloMosaic Idealize.ShloMosaic.ValueIdx

/-- The f32 word the reference divides by denotes 5368709 / 2²⁷. -/
theorem temp_val : Ideal.ofBits .f32 0x3D23D70A#32 = ((5368709 / 134217728 : ℝ) : EReal) := by
  simp [Ideal.ofBits, Ideal.ieee, -EReal.coe_mul]; norm_num

/-- The reference's first feature matrix is image 0 as pixels by channels. -/
theorem v3_eq (x0 : (⟨S4x128x96x96, .f32⟩ : BufTy).Contents (Elt Ideal)) :
    val_main_v3 (F := Ideal) x0 = feat0 x0 := by
  unfold val_main_v3 val_main_v2 val_main_v1 val_main_v0; rfl

/-- The reference's second feature matrix is image 1 as pixels by channels. -/
theorem v7_eq (x0 : (⟨S4x128x96x96, .f32⟩ : BufTy).Contents (Elt Ideal)) :
    val_main_v7 (F := Ideal) x0 = feat1 x0 := by
  unfold val_main_v7 val_main_v6 val_main_v5 val_main_v4; rfl

/-- Entry (p, q) of the product of the first matrix with the transposed second: the inner product of row p and row q. -/
theorem v15_apply (x0 : (⟨S4x128x96x96, .f32⟩ : BufTy).Contents (Elt Ideal)) (p q : Fin 9216) :
    val_main_v15 (F := Ideal) x0 (ix2 p q) = ∑ k : Fin 128, feat0 x0 (ix2 p k) * feat1 x0 (ix2 q k) := by
  rw [val_main_v15_apply]
  refine Finset.sum_congr rfl fun k _ => ?_
  rw [val_main_v14_apply, v3_eq, v7_eq]
  have el : lidx_main_v15 (ix2 p q) k = ix2 p k :=
    funext fun a => Fin.ext (by match a with | ⟨0, _⟩ => rfl | ⟨1, _⟩ => rfl)
  have er : idx_main_v14 (ridx_main_v15 (ix2 p q) k) = ix2 q k :=
    funext fun a => Fin.ext (by match a with | ⟨0, _⟩ => rfl | ⟨1, _⟩ => rfl)
  rw [el, er]

/-- Dividing by the temperature word is multiplying by the inverse temperature. -/
theorem v17_apply (x0 : (⟨S4x128x96x96, .f32⟩ : BufTy).Contents (Elt Ideal)) (p q : Fin 9216) :
    val_main_v17 (F := Ideal) x0 (ix2 p q)
      = (∑ k : Fin 128, feat0 x0 (ix2 p k) * feat1 x0 (ix2 q k)) * scale := by
  rw [val_main_v17_apply, val_main_v16_apply, val_main_cst_apply, v15_apply, Ideal.hostDivf_def, Ideal.ofBits_def,
    temp_val, Ideal.div_coe (by norm_num)]
  unfold scale
  norm_num

/-- Entry (p, q) of the similarity matrix. -/
theorem v18_apply (x0 : (⟨S4x128x96x96, .f32⟩ : BufTy).Contents (Elt Ideal)) (p q : Fin 9216) :
    val_main_v18 (F := Ideal) x0 (ix2 p q) = sim (feat0 x0) (feat1 x0) p q := by
  rw [val_main_v18_apply, v17_apply, Ideal.hostUnary_exp_def]
  rfl

/-- The reference's first flattened label vector is the first label map read in row-major order. -/
theorem v10_apply (x1 : (⟨S4x1x96x96, .i32⟩ : BufTy).Contents (Elt Ideal)) (p : Fin 9216) :
    val_main_v10 (F := Ideal) x1 (ix1 p) = flat (labMap0 x1) p := by
  unfold val_main_v10 val_main_v9 val_main_v8 flat labMap0; rfl

/-- The second flattened label vector, likewise. -/
theorem v13_apply (x1 : (⟨S4x1x96x96, .i32⟩ : BufTy).Contents (Elt Ideal)) (q : Fin 9216) :
    val_main_v13 (F := Ideal) x1 (ix1 q) = flat (labMap1 x1) q := by
  unfold val_main_v13 val_main_v12 val_main_v11 flat labMap1; rfl

/-- The first labels as a column, repeated along the rows: entry (p, q) is label p of the first image. -/
theorem v21_apply (x1 : (⟨S4x1x96x96, .i32⟩ : BufTy).Contents (Elt Ideal)) (p q : Fin 9216) :
    val_main_v21 (F := Ideal) x1 (ix2 p q) = flat (labMap0 x1) p := by
  rw [val_main_v21_apply, val_main_v19_apply, ← v10_apply]
  refine congrArg _ (funext fun a => Fin.ext ?_)
  match a with | ⟨0, _⟩ => rfl

/-- The second labels as a row, repeated along the columns: entry (p, q) is label q of the second image. -/
theorem v22_apply (x1 : (⟨S4x1x96x96, .i32⟩ : BufTy).Contents (Elt Ideal)) (p q : Fin 9216) :
    val_main_v22 (F := Ideal) x1 (ix2 p q) = flat (labMap1 x1) q := by
  rw [val_main_v22_apply, val_main_v20_apply, ← v13_apply]
  refine congrArg _ (funext fun a => Fin.ext ?_)
  match a with | ⟨0, _⟩ => rfl

/-- Entry (p, q) of the masked similarity matrix: the similarity where the labels agree, zero elsewhere. -/
theorem v24_apply (x0 : (⟨S4x128x96x96, .f32⟩ : BufTy).Contents (Elt Ideal))
    (x1 : (⟨S4x1x96x96, .i32⟩ : BufTy).Contents (Elt Ideal)) (p q : Fin 9216) :
    val_main_v24 (F := Ideal) x0 x1 (ix2 p q)
      = msim (feat0 x0) (feat1 x0) (flat (labMap0 x1)) (flat (labMap1 x1)) p q := by
  rw [val_main_v24_apply, val_main_v23_apply, v21_apply, v22_apply, v18_apply, val_main_call0_v0_apply,
    val_main_cst_0_apply, Ideal.ofBits_def, Ideal.ofBits_zero_f32]
  rfl

/-- The masked sum over all pairs is the sum of the similarities of equally labelled pairs. -/
theorem v25_eq (x0 : (⟨S4x128x96x96, .f32⟩ : BufTy).Contents (Elt Ideal))
    (x1 : (⟨S4x1x96x96, .i32⟩ : BufTy).Contents (Elt Ideal)) :
    val_main_v25 (F := Ideal) x0 x1
      = fun _ => pos (feat0 x0) (feat1 x0) (flat (labMap0 x1)) (flat (labMap1 x1)) := by
  funext i
  rw [val_main_v25_apply, val_main_cst_1_apply, Ideal.ofBits_def, Ideal.ofBits_zero_f32, zero_add, sum_idx2]
  unfold pos
  exact Finset.sum_congr rfl fun p _ => Finset.sum_congr rfl fun q _ => v24_apply x0 x1 p q

/-- The unmasked sum over all pairs is the sum of all similarities. -/
theorem v26_eq (x0 : (⟨S4x128x96x96, .f32⟩ : BufTy).Contents (Elt Ideal)) :
    val_main_v26 (F := Ideal) x0 = fun _ => total (feat0 x0) (feat1 x0) := by
  funext i
  rw [val_main_v26_apply, val_main_cst_2_apply, Ideal.ofBits_def, Ideal.ofBits_zero_f32, zero_add, sum_idx2]
  unfold total
  exact Finset.sum_congr rfl fun p _ => Finset.sum_congr rfl fun q _ => v18_apply x0 p q

/-- The reference computes the loss: its two sums are `pos` and `total`, and its last four operations are the
    scalar tail `-log (pos / total) / 84934656`. -/
theorem val_eq_loss (x0 : (⟨S4x128x96x96, .f32⟩ : BufTy).Contents (Elt Ideal))
    (x1 : (⟨S4x1x96x96, .i32⟩ : BufTy).Contents (Elt Ideal)) :
    val_main_v30 (F := Ideal) x0 x1 = loss x0 x1 := by
  unfold val_main_v30 val_main_v29 val_main_v28 val_main_v27 val_main_cst_3 loss lossTail
  rw [v25_eq, v26_eq]

end Cert.ReferenceIdeal.RefValue

end
-- ==== Proof.lean ====
/-
  The certificate of the supervised contrastive loss kernel against its jnp reference.

  Both programs take `x : f32[4, 128, 96, 96]` and `label : i32[4, 1, 96, 96]` and return one scalar: with images 0
  and 1 of `x` as 9216 pixels by 128 channels, the similarity of pixels `p` and `q` is `exp (⟨row p, row q⟩ / T)`;
  `total` sums it over all pairs, `pos` over the pairs whose labels agree, and the result is
  `-log (pos / total) / 9216²` (Spec.lean). The reference divides the inner products by the f32 word nearest 0.04,
  `D = 5368709 / 2²⁷`; the kernel multiplies by a folded reciprocal, which its idealization names `1 / D`: on the
  extended reals dividing by a nonzero real is multiplying by its reciprocal, so both scale by the same number.
  The kernel walks the 9216 × 9216 similarity matrix in 64 tiles, adds each tile's two sums to two running
  one-word accumulators and writes them out after the last tile (Cases, Blocks, TileValue, Chain, Final); the
  reference forms the matrix whole (RefValue). Sums of extended reals may be regrouped freely, so the two results
  are equal at every input; the precondition is not used.
-/
import proofs.«119153_j46531675685457_1_alg».proof.Defs
import proofs.«119153_j46531675685457_1_alg».proof.Proof.Gen.Kernel
import proofs.«119153_j46531675685457_1_alg».proof.Proof.Gen.Kernel.Frame
import proofs.«119153_j46531675685457_1_alg».proof.Proof.Gen.KernelIdeal
import proofs.«119153_j46531675685457_1_alg».proof.Proof.Gen.KernelIdeal.Frame
import proofs.«119153_j46531675685457_1_alg».proof.Proof.Gen.ReferenceIdeal
import proofs.«119153_j46531675685457_1_alg».proof.Proof.Gen.ReferenceIdeal.Run
import proofs.«119153_j46531675685457_1_alg».proof.Proof.Gen.ReferenceIdeal.Read
import proofs.«119153_j46531675685457_1_alg».proof.Proof.Gen.Pre_finite_inputs
import proofs.«119153_j46531675685457_1_alg».proof.Proof.Final
import proofs.«119153_j46531675685457_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale `25.0` is named, and the name denotes `2²⁷ / 5368709`. -/
theorem preserves : Cert.preserves_Kernel_KernelIdeal :=
  IdealRules.named_const.statement Cert.KernelIdeal.κ "inv_temperature" .f32 0x41C80000#32
    ((134217728 / 5368709 : ℝ) : EReal) rfl

/-- Both idealized programs end with the specification's loss of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.val_eq_loss, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
